-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x163840 : Shape := ⟨2, ![2, 163840]⟩
abbrev S512x512 : Shape := ⟨2, ![512, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x512 .f32) (main_arg1 : IVec S2x163840 32) (main_arg2 : FVec F S512x512 .f32) (main_arg3 : FVec F S512 .f32) (main_arg4 : FVec F S512x64 .f32) (main_arg5 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_v13 main_v16
-- ==== Kernel.lean ====
abbrev S10000x512 : Shape := ⟨2, ![10000, 512]⟩
abbrev S2x163840 : Shape := ⟨2, ![2, 163840]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x163840 : Shape := ⟨2, ![1, 163840]⟩
abbrev S163840 : Shape := ⟨1, ![163840]⟩
abbrev S10000 : Shape := ⟨1, ![10000]⟩
abbrev S173840 : Shape := ⟨1, ![173840]⟩
abbrev S_ : Shape := ⟨0, ![]⟩
abbrev S173840x1 : Shape := ⟨2, ![173840, 1]⟩
abbrev S2000x512 : Shape := ⟨2, ![2000, 512]⟩
abbrev S173840x512 : Shape := ⟨2, ![173840, 512]⟩
abbrev S1x512 : Shape := ⟨2, ![1, 512]⟩
abbrev S10000x64 : Shape := ⟨2, ![10000, 64]⟩
abbrev S2000x64 : Shape := ⟨2, ![2000, 64]⟩
abbrev S173840x64 : Shape := ⟨2, ![173840, 64]⟩
abbrev S1x64 : Shape := ⟨2, ![1, 64]⟩
abbrev S10000x1 : Shape := ⟨2, ![10000, 1]⟩

abbrev nBuf : Space → Nat
  | .hbm => 104
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x163840, .i32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S1x163840, .i32⟩
  | .hbm, ⟨7, _⟩ => ⟨S163840, .i32⟩
  | .hbm, ⟨8, _⟩ => ⟨S1x163840, .i32⟩
  | .hbm, ⟨9, _⟩ => ⟨S163840, .i32⟩
  | .hbm, ⟨10, _⟩ => ⟨S10000, .i32⟩
  | .hbm, ⟨11, _⟩ => ⟨S173840, .i32⟩
  | .hbm, ⟨12, _⟩ => ⟨S173840, .i32⟩
  | .hbm, ⟨13, _⟩ => ⟨S_, .f32⟩
  | .hbm, ⟨14, _⟩ => ⟨S173840, .f32⟩
  | .hbm, ⟨15, _⟩ => ⟨S_, .f32⟩
  | .hbm, ⟨16, _⟩ => ⟨S10000, .f32⟩
  | .hbm, ⟨17, _⟩ => ⟨S173840x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S173840, .i32⟩
  | .hbm, ⟨29, _⟩ => ⟨S173840, .i1⟩
  | .hbm, ⟨30, _⟩ => ⟨S_, .i32⟩
  | .hbm, ⟨31, _⟩ => ⟨S173840, .i32⟩
  | .hbm, ⟨32, _⟩ => ⟨S173840, .i32⟩
  | .hbm, ⟨33, _⟩ => ⟨S173840, .i32⟩
  | .hbm, ⟨34, _⟩ => ⟨S173840x1, .i32⟩
  | .hbm, ⟨35, _⟩ => ⟨S173840, .f32⟩
  | .hbm, ⟨36, _⟩ => ⟨S_, .i32⟩
  | .hbm, ⟨37, _⟩ => ⟨S173840, .i32⟩
  | .hbm, ⟨38, _⟩ => ⟨S173840, .i1⟩
  | .hbm, ⟨39, _⟩ => ⟨S_, .i32⟩
  | .hbm, ⟨40, _⟩ => ⟨S173840, .i32⟩
  | .hbm, ⟨41, _⟩ => ⟨S173840, .i32⟩
  | .hbm, ⟨42, _⟩ => ⟨S173840, .i32⟩
  | .hbm, ⟨43, _⟩ => ⟨S173840x1, .i32⟩
  | .hbm, ⟨44, _⟩ => ⟨S173840, .f32⟩
  | .hbm, ⟨45, _⟩ => ⟨S173840, .f32⟩
  | .hbm, ⟨46, _⟩ => ⟨S10000x512, .f32⟩
  | .hbm, ⟨47, _⟩ => ⟨S_, .i32⟩
  | .hbm, ⟨48, _⟩ => ⟨S173840, .i32⟩
  | .hbm, ⟨49, _⟩ => ⟨S173840, .i1⟩
  | .hbm, ⟨50, _⟩ => ⟨S_, .i32⟩
  | .hbm, ⟨51, _⟩ => ⟨S173840, .i32⟩
  | .hbm, ⟨52, _⟩ => ⟨S173840, .i32⟩
  | .hbm, ⟨53, _⟩ => ⟨S173840, .i32⟩
  | .hbm, ⟨54, _⟩ => ⟨S173840x1, .i32⟩
  | .hbm, ⟨55, _⟩ => ⟨S173840x512, .f32⟩
  | .hbm, ⟨56, _⟩ => ⟨S173840x1, .f32⟩
  | .hbm, ⟨57, _⟩ => ⟨S173840x512, .f32⟩
  | .hbm, ⟨58, _⟩ => ⟨S173840x512, .f32⟩
  | .hbm, ⟨59, _⟩ => ⟨S_, .f32⟩
  | .hbm, ⟨60, _⟩ => ⟨S10000x512, .f32⟩
  | .hbm, ⟨61, _⟩ => ⟨S173840x1, .i32⟩
  | .hbm, ⟨62, _⟩ => ⟨S10000x512, .f32⟩
  | .hbm, ⟨63, _⟩ => ⟨S1x512, .f32⟩
  | .hbm, ⟨64, _⟩ => ⟨S10000x512, .f32⟩
  | .hbm, ⟨65, _⟩ => ⟨S10000x512, .f32⟩
  | .hbm, ⟨66, _⟩ => ⟨S_, .f32⟩
  | .hbm, ⟨67, _⟩ => ⟨S10000x512, .f32⟩
  | .hbm, ⟨68, _⟩ => ⟨S10000x512, .f32⟩
  | .hbm, ⟨69, _⟩ => ⟨S10000x64, .f32⟩
  | .hbm, ⟨70, _⟩ => ⟨S_, .i32⟩
  | .hbm, ⟨71, _⟩ => ⟨S173840, .i32⟩
  | .hbm, ⟨72, _⟩ => ⟨S173840, .i1⟩
  | .hbm, ⟨73, _⟩ => ⟨S_, .i32⟩
  | .hbm, ⟨74, _⟩ => ⟨S173840, .i32⟩
  | .hbm, ⟨75, _⟩ => ⟨S173840, .i32⟩
  | .hbm, ⟨76, _⟩ => ⟨S173840, .i32⟩
  | .hbm, ⟨77, _⟩ => ⟨S173840x1, .i32⟩
  | .hbm, ⟨78, _⟩ => ⟨S173840x64, .f32⟩
  | .hbm, ⟨79, _⟩ => ⟨S173840x1, .f32⟩
  | .hbm, ⟨80, _⟩ => ⟨S173840x64, .f32⟩
  | .hbm, ⟨81, _⟩ => ⟨S173840x64, .f32⟩
  | .hbm, ⟨82, _⟩ => ⟨S_, .f32⟩
  | .hbm, ⟨83, _⟩ => ⟨S10000x64, .f32⟩
  | .hbm, ⟨84, _⟩ => ⟨S173840x1, .i32⟩
  | .hbm, ⟨85, _⟩ => ⟨S10000x64, .f32⟩
  | .hbm, ⟨86, _⟩ => ⟨S1x64, .f32⟩
  | .hbm, ⟨87, _⟩ => ⟨S10000x64, .f32⟩
  | .hbm, ⟨88, _⟩ => ⟨S10000x64, .f32⟩
  | .hbm, ⟨89, _⟩ => ⟨S_, .f32⟩
  | .hbm, ⟨90, _⟩ => ⟨S10000, .f32⟩
  | .hbm, ⟨91, _⟩ => ⟨S_, .f32⟩
  | .hbm, ⟨92, _⟩ => ⟨S10000, .f32⟩
  | .hbm, ⟨93, _⟩ => ⟨S10000, .f32⟩
  | .hbm, ⟨94, _⟩ => ⟨S10000x1, .f32⟩
  | .hbm, ⟨95, _⟩ => ⟨S10000x64, .f32⟩
  | .hbm, ⟨96, _⟩ => ⟨S10000x64, .f32⟩
  | .hbm, ⟨97, _⟩ => ⟨S10000x64, .f32⟩
  | .hbm, ⟨98, _⟩ => ⟨S_, .f32⟩
  | .hbm, ⟨99, _⟩ => ⟨S10000, .f32⟩
  | .hbm, ⟨100, _⟩ => ⟨S10000x1, .f32⟩
  | .hbm, ⟨101, _⟩ => ⟨S10000x1, .f32⟩
  | .hbm, ⟨102, _⟩ => ⟨S10000x64, .f32⟩
  | .hbm, ⟨103, _⟩ => ⟨S10000x64, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x64, .f32⟩
  | .local _ .vmem, ⟨8, _⟩ => ⟨S2000x64, .f32⟩
  | .local _ .vmem, ⟨9, _⟩ => ⟨S2000x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x163840_S1x163840_0_0 : S2x163840.Slices ![0, 0] S1x163840
  shapeCasts_S1x163840_S163840 : S1x163840.ShapeCasts S163840
  slices_S2x163840_S1x163840_1_0 : S2x163840.Slices ![1, 0] S1x163840
  concatenates_S163840_S10000_S173840_d0 : Shape.Concatenates [S163840, S10000] S173840 0
  bcast_S_S173840 : S_.BroadcastsInDim S173840 (![] : Fin 0 → Fin S173840.rank)
  bcast_S_S10000 : S_.BroadcastsInDim S10000 (![] : Fin 0 → Fin S10000.rank)
  bcast_S173840_S173840x1_0 : S173840.BroadcastsInDim S173840x1 (![0] : Fin 1 → Fin S173840x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S173840x1_S173840x512_0_1 : S173840x1.BroadcastsInDim S173840x512 (![0, 1] : Fin 2 → Fin S173840x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S173840x1_S173840x64_0_1 : S173840x1.BroadcastsInDim S173840x64 (![0, 1] : Fin 2 → Fin S173840x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  scatter_S10000_S173840x1_S173840_n_0_0_1_wf : ScatterDims.WF S10000 S173840x1 S173840 [] [0] [0] 1
  gather_S10000_S173840x1_S173840_n_0_n_n_0_1_1_wf : GatherDims.WF S10000 S173840x1 S173840 [] [0] [] [0] [] 1 ![1]
  dot_S2000x512_S512x512_S2000x512_1_0_0_1_n_n_wf : DotDims.WF S2000x512 S512x512 S2000x512 [1] [0] [0] [1] [] []
  gather_S10000x512_S173840x1_S173840x512_1_0_n_n_0_1_1512_wf : GatherDims.WF S10000x512 S173840x1 S173840x512 [1] [0] [] [0] [] 1 ![1, 512]
  scatter_S10000x512_S173840x1_S173840x512_1_0_0_1_wf : ScatterDims.WF S10000x512 S173840x1 S173840x512 [1] [0] [0] 1
  dot_S2000x512_S512x64_S2000x64_1_0_0_1_n_n_wf : DotDims.WF S2000x512 S512x64 S2000x64 [1] [0] [0] [1] [] []
  gather_S10000x64_S173840x1_S173840x64_1_0_n_n_0_1_164_wf : GatherDims.WF S10000x64 S173840x1 S173840x64 [1] [0] [] [0] [] 1 ![1, 64]
  scatter_S10000x64_S173840x1_S173840x64_1_0_0_1_wf : ScatterDims.WF S10000x64 S173840x1 S173840x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .f32 = 32 ∨ (Rect.block (s := S10000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S10000x64.size a
  hwx1_2 : ∀ i : grid1.Coords, EltTy.bits .f32 = 32 ∨ (Rect.block (s := S10000x64) S2000x64.size (cc1_transform_2 i) (hinb1_2 i)).WholeWords (EltTy.packing .f32)

variable [Facts₀]

def scatter_S10000_S173840x1_S173840_n_0_0_1 : ScatterDims S10000 S173840x1 S173840 where
  updateWindowDims := []
  insertedWindowDims := [0]
  scatterDimsToOperandDims := [0]
  indexVectorDim := 1
  wf := scatter_S10000_S173840x1_S173840_n_0_0_1_wf
def gather_S10000_S173840x1_S173840_n_0_n_n_0_1_1 : GatherDims S10000 S173840x1 S173840 where
  offsetDims := []
  collapsedSliceDims := [0]
  operandBatchingDims := []
  startIndicesBatchingDims := []
  startIndexMap := [0]
  indexVectorDim := 1
  sliceSizes := ![1]
  wf := gather_S10000_S173840x1_S173840_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x512_S173840x1_S173840x512_1_0_n_n_0_1_1512 : GatherDims S10000x512 S173840x1 S173840x512 where
  offsetDims := [1]
  collapsedSliceDims := [0]
  operandBatchingDims := []
  startIndicesBatchingDims := []
  startIndexMap := [0]
  indexVectorDim := 1
  sliceSizes := ![1, 512]
  wf := gather_S10000x512_S173840x1_S173840x512_1_0_n_n_0_1_1512_wf
def scatter_S10000x512_S173840x1_S173840x512_1_0_0_1 : ScatterDims S10000x512 S173840x1 S173840x512 where
  updateWindowDims := [1]
  insertedWindowDims := [0]
  scatterDimsToOperandDims := [0]
  indexVectorDim := 1
  wf := scatter_S10000x512_S173840x1_S173840x512_1_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S10000x64_S173840x1_S173840x64_1_0_n_n_0_1_164 : GatherDims S10000x64 S173840x1 S173840x64 where
  offsetDims := [1]
  collapsedSliceDims := [0]
  operandBatchingDims := []
  startIndicesBatchingDims := []
  startIndexMap := [0]
  indexVectorDim := 1
  sliceSizes := ![1, 64]
  wf := gather_S10000x64_S173840x1_S173840x64_1_0_n_n_0_1_164_wf
def scatter_S10000x64_S173840x1_S173840x64_1_0_0_1 : ScatterDims S10000x64 S173840x1 S173840x64 where
  updateWindowDims := [1]
  insertedWindowDims := [0]
  scatterDimsToOperandDims := [0]
  indexVectorDim := 1
  wf := scatter_S10000x64_S173840x1_S173840x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x163840 : Shape := ⟨2, ![2, 163840]⟩
abbrev S512x512 : Shape := ⟨2, ![512, 512]⟩
abbrev S512 : Shape := ⟨1, ![512]⟩
abbrev S512x64 : Shape := ⟨2, ![512, 64]⟩
abbrev S64 : Shape := ⟨1, ![64]⟩
abbrev S1x163840 : Shape := ⟨2, ![1, 163840]⟩
abbrev S163840 : Shape := ⟨1, ![163840]⟩
abbrev S10000 : Shape := ⟨1, ![10000]⟩
abbrev S173840 : Shape := ⟨1, ![173840]⟩
abbrev S_ : Shape := ⟨0, ![]⟩
abbrev S173840x1 : Shape := ⟨2, ![173840, 1]⟩
abbrev S173840x512 : Shape := ⟨2, ![173840, 512]⟩
abbrev S1x512 : Shape := ⟨2, ![1, 512]⟩
abbrev S10000x64 : Shape := ⟨2, ![10000, 64]⟩
abbrev S173840x64 : Shape := ⟨2, ![173840, 64]⟩
abbrev S1x64 : Shape := ⟨2, ![1, 64]⟩
abbrev S10000x1 : Shape := ⟨2, ![10000, 1]⟩

abbrev nBuf : Space → Nat
  | .hbm => 144
  | .vmem => 0
  | .smem => 0
  | _ => 0

abbrev hbmTy0_0 (i : Nat) : BufTy := match i % 128 with
  | 0 => ⟨S10000x512, .f32⟩
  | 1 => ⟨S2x163840, .i32⟩
  | 2 => ⟨S512x512, .f32⟩
  | 3 => ⟨S512, .f32⟩
  | 4 => ⟨S512x64, .f32⟩
  | 5 => ⟨S64, .f32⟩
  | 6 => ⟨S1x163840, .i32⟩
  | 7 => ⟨S163840, .i32⟩
  | 8 => ⟨S1x163840, .i32⟩
  | 9 => ⟨S163840, .i32⟩
  | 10 => ⟨S10000, .i32⟩
  | 11 => ⟨S173840, .i32⟩
  | 12 => ⟨S173840, .i32⟩
  | 13 => ⟨S_, .f32⟩
  | 14 => ⟨S173840, .f32⟩
  | 15 => ⟨S_, .f32⟩
  | 16 => ⟨S10000, .f32⟩
  | 17 => ⟨S173840x1, .i32⟩
  | 18 => ⟨S10000, .f32⟩
  | 19 => ⟨S_, .f32⟩
  | 20 => ⟨S10000, .f32⟩
  | 21 => ⟨S10000, .i1⟩
  | 22 => ⟨S10000, .f32⟩
  | 23 => ⟨S_, .f32⟩
  | 24 => ⟨S_, .f32⟩
  | 25 => ⟨S10000, .f32⟩
  | 26 => ⟨S10000, .f32⟩
  | 27 => ⟨S_, .i32⟩
  | 28 => ⟨S173840, .i32⟩
  | 29 => ⟨S173840, .i1⟩
  | 30 => ⟨S_, .i32⟩
  | 31 => ⟨S173840, .i32⟩
  | 32 => ⟨S173840, .i32⟩
  | 33 => ⟨S173840, .i32⟩
  | 34 => ⟨S173840x1, .i32⟩
  | 35 => ⟨S173840, .f32⟩
  | 36 => ⟨S_, .i32⟩
  | 37 => ⟨S173840, .i32⟩
  | 38 => ⟨S173840, .i1⟩
  | 39 => ⟨S_, .i32⟩
  | 40 => ⟨S173840, .i32⟩
  | 41 => ⟨S173840, .i32⟩
  | 42 => ⟨S173840, .i32⟩
  | 43 => ⟨S173840x1, .i32⟩
  | 44 => ⟨S173840, .f32⟩
  | 45 => ⟨S173840, .f32⟩
  | 46 => ⟨S10000x512, .f32⟩
  | 47 => ⟨S_, .i32⟩
  | 48 => ⟨S173840, .i32⟩
  | 49 => ⟨S173840, .i1⟩
  | 50 => ⟨S_, .i32⟩
  | 51 => ⟨S173840, .i32⟩
  | 52 => ⟨S173840, .i32⟩
  | 53 => ⟨S173840, .i32⟩
  | 54 => ⟨S173840x1, .i32⟩
  | 55 => ⟨S173840x512, .f32⟩
  | 56 => ⟨S173840x1, .f32⟩
  | 57 => ⟨S173840x512, .f32⟩
  | 58 => ⟨S173840x512, .f32⟩
  | 59 => ⟨S_, .f32⟩
  | 60 => ⟨S10000x512, .f32⟩
  | 61 => ⟨S173840x1, .i32⟩
  | 62 => ⟨S10000x512, .f32⟩
  | 63 => ⟨S1x512, .f32⟩
  | 64 => ⟨S10000x512, .f32⟩
  | 65 => ⟨S10000x512, .f32⟩
  | 66 => ⟨S_, .f32⟩
  | 67 => ⟨S10000x512, .f32⟩
  | 68 => ⟨S10000x512, .f32⟩
  | 69 => ⟨S1x163840, .i32⟩
  | 70 => ⟨S163840, .i32⟩
  | 71 => ⟨S1x163840, .i32⟩
  | 72 => ⟨S163840, .i32⟩
  | 73 => ⟨S10000, .i32⟩
  | 74 => ⟨S173840, .i32⟩
  | 75 => ⟨S173840, .i32⟩
  | 76 => ⟨S_, .f32⟩
  | 77 => ⟨S173840, .f32⟩
  | 78 => ⟨S_, .f32⟩
  | 79 => ⟨S10000, .f32⟩
  | 80 => ⟨S173840x1, .i32⟩
  | 81 => ⟨S10000, .f32⟩
  | 82 => ⟨S_, .f32⟩
  | 83 => ⟨S10000, .f32⟩
  | 84 => ⟨S10000, .i1⟩
  | 85 => ⟨S10000, .f32⟩
  | 86 => ⟨S_, .f32⟩
  | 87 => ⟨S_, .f32⟩
  | 88 => ⟨S10000, .f32⟩
  | 89 => ⟨S10000, .f32⟩
  | 90 => ⟨S_, .i32⟩
  | 91 => ⟨S173840, .i32⟩
  | 92 => ⟨S173840, .i1⟩
  | 93 => ⟨S_, .i32⟩
  | 94 => ⟨S173840, .i32⟩
  | 95 => ⟨S173840, .i32⟩
  | 96 => ⟨S173840, .i32⟩
  | 97 => ⟨S173840x1, .i32⟩
  | 98 => ⟨S173840, .f32⟩
  | 99 => ⟨S_, .i32⟩
  | 100 => ⟨S173840, .i32⟩
  | 101 => ⟨S173840, .i1⟩
  | 102 => ⟨S_, .i32⟩
  | 103 => ⟨S173840, .i32⟩
  | 104 => ⟨S173840, .i32⟩
  | 105 => ⟨S173840, .i32⟩
  | 106 => ⟨S173840x1, .i32⟩
  | 107 => ⟨S173840, .f32⟩
  | 108 => ⟨S173840, .f32⟩
  | 109 => ⟨S10000x64, .f32⟩
  | 110 => ⟨S_, .i32⟩
  | 111 => ⟨S173840, .i32⟩
  | 112 => ⟨S173840, .i1⟩
  | 113 => ⟨S_, .i32⟩
  | 114 => ⟨S173840, .i32⟩
  | 115 => ⟨S173840, .i32⟩
  | 116 => ⟨S173840, .i32⟩
  | 117 => ⟨S173840x1, .i32⟩
  | 118 => ⟨S173840x64, .f32⟩
  | 119 => ⟨S173840x1, .f32⟩
  | 120 => ⟨S173840x64, .f32⟩
  | 121 => ⟨S173840x64, .f32⟩
  | 122 => ⟨S_, .f32⟩
  | 123 => ⟨S10000x64, .f32⟩
  | 124 => ⟨S173840x1, .i32⟩
  | 125 => ⟨S10000x64, .f32⟩
  | 126 => ⟨S1x64, .f32⟩
  | 127 => ⟨S10000x64, .f32⟩
  | _ => ⟨S10000x512, .f32⟩

abbrev hbmTy0_1 (i : Nat) : BufTy := match i % 128 with
  | 0 => ⟨S10000x64, .f32⟩
  | 1 => ⟨S_, .f32⟩
  | 2 => ⟨S10000, .f32⟩
  | 3 => ⟨S_, .f32⟩
  | 4 => ⟨S10000, .f32⟩
  | 5 => ⟨S10000, .f32⟩
  | 6 => ⟨S10000x1, .f32⟩
  | 7 => ⟨S10000x64, .f32⟩
  | 8 => ⟨S10000x64, .f32⟩
  | 9 => ⟨S10000x64, .f32⟩
  | 10 => ⟨S_, .f32⟩
  | 11 => ⟨S10000, .f32⟩
  | 12 => ⟨S10000x1, .f32⟩
  | 13 => ⟨S10000x1, .f32⟩
  | 14 => ⟨S10000x64, .f32⟩
  | 15 => ⟨S10000x64, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x163840_S1x163840_0_0 : S2x163840.Slices ![0, 0] S1x163840
  shapeCasts_S1x163840_S163840 : S1x163840.ShapeCasts S163840
  slices_S2x163840_S1x163840_1_0 : S2x163840.Slices ![1, 0] S1x163840
  concatenates_S163840_S10000_S173840_d0 : Shape.Concatenates [S163840, S10000] S173840 0
  bcast_S_S173840 : S_.BroadcastsInDim S173840 (![] : Fin 0 → Fin S173840.rank)
  bcast_S_S10000 : S_.BroadcastsInDim S10000 (![] : Fin 0 → Fin S10000.rank)
  bcast_S173840_S173840x1_0 : S173840.BroadcastsInDim S173840x1 (![0] : Fin 1 → Fin S173840x1.rank)
  bcast_S173840x1_S173840x512_0_1 : S173840x1.BroadcastsInDim S173840x512 (![0, 1] : Fin 2 → Fin S173840x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S173840x1_S173840x64_0_1 : S173840x1.BroadcastsInDim S173840x64 (![0, 1] : Fin 2 → Fin S173840x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  scatter_S10000_S173840x1_S173840_n_0_0_1_wf : ScatterDims.WF S10000 S173840x1 S173840 [] [0] [0] 1
  gather_S10000_S173840x1_S173840_n_0_n_n_0_1_1_wf : GatherDims.WF S10000 S173840x1 S173840 [] [0] [] [0] [] 1 ![1]
  dot_S10000x512_S512x512_S10000x512_1_0_0_1_n_n_wf : DotDims.WF S10000x512 S512x512 S10000x512 [1] [0] [0] [1] [] []
  gather_S10000x512_S173840x1_S173840x512_1_0_n_n_0_1_1512_wf : GatherDims.WF S10000x512 S173840x1 S173840x512 [1] [0] [] [0] [] 1 ![1, 512]
  scatter_S10000x512_S173840x1_S173840x512_1_0_0_1_wf : ScatterDims.WF S10000x512 S173840x1 S173840x512 [1] [0] [0] 1
  dot_S10000x512_S512x64_S10000x64_1_0_0_1_n_n_wf : DotDims.WF S10000x512 S512x64 S10000x64 [1] [0] [0] [1] [] []
  gather_S10000x64_S173840x1_S173840x64_1_0_n_n_0_1_164_wf : GatherDims.WF S10000x64 S173840x1 S173840x64 [1] [0] [] [0] [] 1 ![1, 64]
  scatter_S10000x64_S173840x1_S173840x64_1_0_0_1_wf : ScatterDims.WF S10000x64 S173840x1 S173840x64 [1] [0] [0] 1

variable [Facts₀]

def scatter_S10000_S173840x1_S173840_n_0_0_1 : ScatterDims S10000 S173840x1 S173840 where
  updateWindowDims := []
  insertedWindowDims := [0]
  scatterDimsToOperandDims := [0]
  indexVectorDim := 1
  wf := scatter_S10000_S173840x1_S173840_n_0_0_1_wf
def gather_S10000_S173840x1_S173840_n_0_n_n_0_1_1 : GatherDims S10000 S173840x1 S173840 where
  offsetDims := []
  collapsedSliceDims := [0]
  operandBatchingDims := []
  startIndicesBatchingDims := []
  startIndexMap := [0]
  indexVectorDim := 1
  sliceSizes := ![1]
  wf := gather_S10000_S173840x1_S173840_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S173840x1_S173840x512_1_0_n_n_0_1_1512 : GatherDims S10000x512 S173840x1 S173840x512 where
  offsetDims := [1]
  collapsedSliceDims := [0]
  operandBatchingDims := []
  startIndicesBatchingDims := []
  startIndexMap := [0]
  indexVectorDim := 1
  sliceSizes := ![1, 512]
  wf := gather_S10000x512_S173840x1_S173840x512_1_0_n_n_0_1_1512_wf
def scatter_S10000x512_S173840x1_S173840x512_1_0_0_1 : ScatterDims S10000x512 S173840x1 S173840x512 where
  updateWindowDims := [1]
  insertedWindowDims := [0]
  scatterDimsToOperandDims := [0]
  indexVectorDim := 1
  wf := scatter_S10000x512_S173840x1_S173840x512_1_0_0_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S10000x64_S173840x1_S173840x64_1_0_n_n_0_1_164 : GatherDims S10000x64 S173840x1 S173840x64 where
  offsetDims := [1]
  collapsedSliceDims := [0]
  operandBatchingDims := []
  startIndicesBatchingDims := []
  startIndexMap := [0]
  indexVectorDim := 1
  sliceSizes := ![1, 64]
  wf := gather_S10000x64_S173840x1_S173840x64_1_0_n_n_0_1_164_wf
def scatter_S10000x64_S173840x1_S173840x64_1_0_0_1 : ScatterDims S10000x64 S173840x1 S173840x64 where
  updateWindowDims := [1]
  insertedWindowDims := [0]
  scatterDimsToOperandDims := [0]
  indexVectorDim := 1
  wf := scatter_S10000x64_S173840x1_S173840x64_1_0_0_1_wf

class Facts : Prop extends Facts₀ where

variable [Facts]
-- ==== Proof.Chains.lean ====
/-
  The sparse half of the network, as three functions.

  Around its two dense products the program does the irregular work of a graph convolution on the
  host: from the edge list it appends one self-loop per node, counts each node's in-degree by a
  scatter-add of ones, turns the degrees into d^(-1/2) (zero where the degree is not positive), and
  forms the symmetric weight of every edge, dinv[src] · dinv[dst]. A layer then gathers the
  product's rows at the edges' sources (a negative index wraps once), scales each gathered row by
  its edge's weight, scatter-adds the rows into their destinations, and adds the bias; the first
  layer ends in a rectifier, the second is returned together with its row-wise log-softmax.
  These chains are named here once, generic in the float family, exactly as the program spells
  them, so that a proof can carry them as opaque functions of the arrays they are applied to.
-/
import proofs.«138708_j446676598800_1_alg».proof.Proof.Gen.KernelIdeal

noncomputable section

namespace Cert.KernelIdeal.Chains

open Cert.KernelIdeal Cert.KernelIdeal.Facts₀ Cert.KernelIdeal.Facts Idealize.ShloMosaic

variable {F : FTy → Type} [FloatOps F]

/-! ## The edge list with self-loops, and the edge weights -/

/-- Row `r` of the 2 × E edge list followed by the node numbers 0 … 9999 (one self-loop per node). -/
def endpoints0 (ei : Vec F S2x163840 .i32) : Vec F S173840 .i32 :=
  concatenate S173840 0 [⟨S163840, shapeCast _ (extractStridedSlice S1x163840 ![0, 0] ei slices_S2x163840_S1x163840_0_0) shapeCasts_S1x163840_S163840⟩, ⟨S10000, iotaInDim S10000 32 0⟩] concatenates_S163840_S10000_S173840_d0
def endpoints1 (ei : Vec F S2x163840 .i32) : Vec F S173840 .i32 :=
  concatenate S173840 0 [⟨S163840, shapeCast _ (extractStridedSlice S1x163840 ![1, 0] ei slices_S2x163840_S1x163840_1_0) shapeCasts_S1x163840_S163840⟩, ⟨S10000, iotaInDim S10000 32 0⟩] concatenates_S163840_S10000_S173840_d0

/-- A negative node index wraps once: s < 0 ↦ s + 10000. -/
def wrap (s : Vec F S173840 .i32) : Vec F S173840 .i32 :=
  select (cmpi .slt s (broadcastInDim S173840 ![] bcast_S_S173840 (constantI S_ 32 0#32)))
    (addi s (broadcastInDim S173840 ![] bcast_S_S173840 (constantI S_ 32 10000#32))) s

/-- The indices as the column a gather or scatter takes. -/
def column (s : Vec F S173840 .i32) : Vec F S173840x1 .i32 :=
  broadcastInDim S173840x1 ![0] bcast_S173840_S173840x1_0 s

/-- In-degrees (self-loops included): ones scatter-added at the destinations. -/
def degree (dst : Vec F S173840 .i32) : Vec F S10000 .f32 :=
  Host.scatterAdd scatter_S10000_S173840x1_S173840_n_0_0_1
    (broadcastInDim S10000 ![] bcast_S_S10000 (constant S_ .f32 0x00000000#32)) (column dst)
    (broadcastInDim S173840 ![] bcast_S_S173840 (constant S_ .f32 0x3F800000#32))

/-- d^(-1/2) where the degree is positive, zero elsewhere. -/
def invSqrtDegree (dst : Vec F S173840 .i32) : Vec F S10000 .f32 :=
  select (cmpf (F := F) .ogt (degree dst) (broadcastInDim S10000 ![] bcast_S_S10000 (constant S_ .f32 0x00000000#32)))
    (Host.rsqrt (degree dst))
    (broadcastInDim S10000 ![] bcast_S_S10000 (id (constant S_ .f32 0x00000000#32)))

/-- One entry per edge of a per-node vector. -/
def atNodes (v : Vec F S10000 .f32) (s : Vec F S173840 .i32) : Vec F S173840 .f32 :=
  Host.gather gather_S10000_S173840x1_S173840_n_0_n_n_0_1_1 v (column (wrap s))

/-- The symmetric weight of every edge: dinv[src] · dinv[dst]. -/
def edgeWeight (src dst : Vec F S173840 .i32) : Vec F S173840 .f32 :=
  mulf (atNodes (invSqrtDegree dst) src) (atNodes (invSqrtDegree dst) dst)

/-! ## Propagation over 512 channels, then the rectifier -/

def propagate512 (h : Vec F S10000x512 .f32) (src dst : Vec F S173840 .i32) (wt : Vec F S173840 .f32) (b : Vec F S512 .f32) : Vec F S10000x512 .f32 :=
  addf
    (Host.scatterAdd scatter_S10000x512_S173840x1_S173840x512_1_0_0_1
      (broadcastInDim S10000x512 ![] bcast_S_S10000x512 (constant S_ .f32 0x00000000#32)) (column dst)
      (mulf (Host.gather gather_S10000x512_S173840x1_S173840x512_1_0_n_n_0_1_1512 h (column (wrap src)))
        (broadcastInDim S173840x512 ![0, 1] bcast_S173840x1_S173840x512_0_1 (broadcastInDim S173840x1 ![0] bcast_S173840_S173840x1_0 wt))))
    (broadcastInDim S10000x512 ![0, 1] bcast_S1x512_S10000x512_0_1 (broadcastInDim S1x512 ![1] bcast_S512_S1x512_1 b))

def hidden (h : Vec F S10000x512 .f32) (src dst : Vec F S173840 .i32) (wt : Vec F S173840 .f32) (b : Vec F S512 .f32) : Vec F S10000x512 .f32 :=
  maximumf (propagate512 h src dst wt b) (broadcastInDim S10000x512 ![] bcast_S_S10000x512 (constant S_ .f32 0x00000000#32))

/-! ## Propagation over 64 channels, and the row-wise log-softmax -/

def propagate64 (g : Vec F S10000x64 .f32) (src dst : Vec F S173840 .i32) (wt : Vec F S173840 .f32) (b : Vec F S64 .f32) : Vec F S10000x64 .f32 :=
  addf
    (Host.scatterAdd scatter_S10000x64_S173840x1_S173840x64_1_0_0_1
      (broadcastInDim S10000x64 ![] bcast_S_S10000x64 (constant S_ .f32 0x00000000#32)) (column dst)
      (mulf (Host.gather gather_S10000x64_S173840x1_S173840x64_1_0_n_n_0_1_164 g (column (wrap src)))
        (broadcastInDim S173840x64 ![0, 1] bcast_S173840x1_S173840x64_0_1 (broadcastInDim S173840x1 ![0] bcast_S173840_S173840x1_0 wt))))
    (broadcastInDim S10000x64 ![0, 1] bcast_S1x64_S10000x64_0_1 (broadcastInDim S1x64 ![1] bcast_S64_S1x64_1 b))

/-- z minus its row maximum. -/
def shifted (z : Vec F S10000x64 .f32) : Vec F S10000x64 .f32 :=
  subf z (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf z (constant S_ .f32 0xFF800000#32) reducesTo_S10000x64_S10000_d1 h_S_))))

def logSoftmax (z : Vec F S10000x64 .f32) : Vec F S10000x64 .f32 :=
  subf (shifted z) (broadcastInDim S10000x64 ![0, 1] bcast_S10000x1_S10000x64_0_1
    (Host.log (broadcastInDim S10000x1 ![0] bcast_S10000_S10000x1_0
      (Host.reduceAdd (Host.exp (shifted z)) (constant S_ .f32 0x00000000#32) reducesTo_S10000x64_S10000_d1 h_S_))))

end Cert.KernelIdeal.Chains

end
-- ==== Proof.Dense.lean ====
/-
  The dense half of each graph-convolution layer, as mathematics. Entry (r, q) of the product of a
  tall array of node features with a weight matrix is the sum over k of x[r, k] · w[k, q], taken in
  the extended reals, where sums and products are the exact ones and no format change is visible.
  One program forms this array in five blocks of 2000 rows and the other in one piece; both are
  compared with the function stated here, at the two sizes the network uses, over literal shapes.
-/
import Idealize.ShloMosaic.PureOps.Ideal
import Idealize.ShloMosaic.Lib.ValueIdx

noncomputable section

namespace Cert.Dense

open Idealize.ShloMosaic Idealize.ShloMosaic.ValueIdx

/-- Node features entering the first layer, and leaving it: 10000 nodes, 512 channels. -/
abbrev Feat512 : Shape := ⟨2, ![10000, 512]⟩
/-- Node features leaving the second layer: 10000 nodes, 64 classes. -/
abbrev Feat64 : Shape := ⟨2, ![10000, 64]⟩
/-- The first layer's weights. -/
abbrev Wt512x512 : Shape := ⟨2, ![512, 512]⟩
/-- The second layer's weights. -/
abbrev Wt512x64 : Shape := ⟨2, ![512, 64]⟩

/-- First layer: row r of x against column q of w, summed over the 512 input channels. -/
def rowsByCols512 (x : FVec Ideal Feat512 .f32) (w : FVec Ideal Wt512x512 .f32) : FVec Ideal Feat512 .f32 :=
  fun i => ∑ k : Fin 512, x (ix2 (n0 := 10000) (n1 := 512) ⟨(i 0).val, (i 0).isLt⟩ k)
    * w (ix2 (n0 := 512) (n1 := 512) k ⟨(i 1).val, (i 1).isLt⟩)

/-- Second layer: row r of h against column q of w, summed over the 512 hidden channels. -/
def rowsByCols64 (h : FVec Ideal Feat512 .f32) (w : FVec Ideal Wt512x64 .f32) : FVec Ideal Feat64 .f32 :=
  fun i => ∑ k : Fin 512, h (ix2 (n0 := 10000) (n1 := 512) ⟨(i 0).val, (i 0).isLt⟩ k)
    * w (ix2 (n0 := 512) (n1 := 64) k ⟨(i 1).val, (i 1).isLt⟩)

end Cert.Dense

end
-- ==== Proof.Network.lean ====
/-
  The two-layer graph convolution as one function of its six arguments, over the extended reals:
  node features x, the edge list, and each layer's weights and bias. With S and D the padded source
  and destination lists and ω the symmetric edge weights computed from them,

    hidden = max(0, Σ_{e : D[e] = ·} ω[e] · (x · W₁)[S[e]] + b₁),
    logits = Σ_{e : D[e] = ·} ω[e] · (hidden · W₂)[S[e]] + b₂,

  and the program returns the logits and their row-wise log-softmax. The dense products are the exact
  row-by-column sums of `Cert.Dense`; the sparse steps are the chains of `Cert.KernelIdeal.Chains`.
-/
import proofs.«138708_j446676598800_1_alg».proof.Proof.Chains
import proofs.«138708_j446676598800_1_alg».proof.Proof.Dense

noncomputable section

namespace Cert.KernelIdeal.Network

open Cert.KernelIdeal Cert.KernelIdeal.Chains Cert.Dense Idealize.ShloMosaic

/-- The hidden features: the first layer, rectified. -/
def hiddenFeatures (x : Vec Ideal S10000x512 .f32) (ei : Vec Ideal S2x163840 .i32) (w1 : Vec Ideal S512x512 .f32) (b1 : Vec Ideal S512 .f32) :
    Vec Ideal S10000x512 .f32 :=
  hidden (rowsByCols512 x w1) (endpoints0 ei) (endpoints1 ei) (edgeWeight (endpoints0 ei) (endpoints1 ei)) b1

/-- The first result: the second layer's output. -/
def logits (x : Vec Ideal S10000x512 .f32) (ei : Vec Ideal S2x163840 .i32) (w1 : Vec Ideal S512x512 .f32) (b1 : Vec Ideal S512 .f32)
    (w2 : Vec Ideal S512x64 .f32) (b2 : Vec Ideal S64 .f32) : Vec Ideal S10000x64 .f32 :=
  propagate64 (rowsByCols64 (hiddenFeatures x ei w1 b1) w2) (endpoints0 ei) (endpoints1 ei) (edgeWeight (endpoints0 ei) (endpoints1 ei)) b2

/-- The second result: its row-wise log-softmax. -/
def logProbs (x : Vec Ideal S10000x512 .f32) (ei : Vec Ideal S2x163840 .i32) (w1 : Vec Ideal S512x512 .f32) (b1 : Vec Ideal S512 .f32)
    (w2 : Vec Ideal S512x64 .f32) (b2 : Vec Ideal S64 .f32) : Vec Ideal S10000x64 .f32 :=
  logSoftmax (logits x ei w1 b1 w2 b2)

end Cert.KernelIdeal.Network

end
-- ==== Proof.Rows0.lean ====
/-
  The first pallas_call, read exactly.

  The region walks the 10000 × 512 feature array in five blocks of 2000 rows. At block t it
  multiplies the block by the whole 512 × 512 weight array (the change to the short float format
  is the identity on the extended reals, and the accumulator starts at zero) and writes the
  2000 × 512 product to rows 2000·t … 2000·t + 1999 of the output array. Row r of block t is row
  2000·t + r of the array, the weight block is the whole weight array, and the five output blocks
  tile the output. So the output array ends holding, entry by entry, Σ_k x[r, k] · w[k, q] of the
  two arrays the region was entered with: `Cert.Dense.rowsByCols512`.
-/
import proofs.«138708_j446676598800_1_alg».proof.Proof.Gen.KernelIdeal.Frame
import proofs.«138708_j446676598800_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Rows0

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## One block product at an entry -/

/-- The left operand of the block product is read at the output's row … -/
theorem lhs_row (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- … and at the contracted channel; -/
theorem lhs_chan (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- the right operand at the contracted channel … -/
theorem rhs_chan (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- … and at the output's column. -/
theorem rhs_col (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- What the body stores, at entry (r, q) of the block: Σ_k (feature block)[r, k] · (weight block)[k, q]. -/
theorem blockProduct_apply (x0 : Vec Ideal S2000x512 .f32) (x1 : Vec Ideal S512x512 .f32) (j : S2000x512.Idx) :
    k0_pay1 (F := Ideal) x0 x1 j
      = ∑ k : Fin 512, x0 (ix2 (n0 := 2000) (n1 := 512) ⟨(j 0).val, (j 0).isLt⟩ k) * x1 (ix2 (n0 := 512) (n1 := 512) k ⟨(j 1).val, (j 1).isLt⟩) := by
  unfold k0_pay1
  refine (Ideal.matmul_constant_zero_apply dot_S2000x512_S512x512_S2000x512_1_0_0_1_n_n none _ _ j).trans ?_
  show ∑ k : dot_S2000x512_S512x512_S2000x512_1_0_0_1_n_n.contr.Idx, x0 (dot_S2000x512_S512x512_S2000x512_1_0_0_1_n_n.lhsIdx j k) * x1 (dot_S2000x512_S512x512_S2000x512_1_0_0_1_n_n.rhsIdx j k) = _
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx j ((ValueIdx.contrEquiv1 dot_S2000x512_S512x512_S2000x512_1_0_0_1_n_n 512 rfl rfl).symm k)
      = ix2 (n0 := 2000) (n1 := 512) ⟨(j 0).val, (j 0).isLt⟩ k := funext fun a => Fin.ext (by
    match a with
    | ⟨0, _⟩ => exact lhs_row _ _
    | ⟨1, _⟩ => exact (lhs_chan _ _).trans hk)
  have er : dot_S2000x512_S512x512_S2000x512_1_0_0_1_n_n.rhsIdx j ((ValueIdx.contrEquiv1 dot_S2000x512_S512x512_S2000x512_1_0_0_1_n_n 512 rfl rfl).symm k)
      = ix2 (n0 := 512) (n1 := 512) k ⟨(j 1).val, (j 1).isLt⟩ := funext fun a => Fin.ext (by
    match a with
    | ⟨0, _⟩ => exact (rhs_chan _ _).trans hk
    | ⟨1, _⟩ => exact rhs_col _ _)
  rw [el, er]

/-! ## From the five blocks to the array -/

-- the arrays as the region finds them
variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the feature block and the output block at
    block row t, block column 0; the weight block always at (0, 0). -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t writes back rows 2000·t … of the whole product: its block of `rowsByCols512`. -/
theorem flushed_rows (c : Dev nD) (t : Fin cfg0.N) :
    (dat0 V c).flushed 2 t
      = ((cfg0.win 2).blk t).view.read (Elt Ideal) (Cert.Dense.rowsByCols512 (V c main_arg0) (V c main_arg2)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x512) origin]
  obtain ⟨e0, e1, e2, e3, e4, e5⟩ := blockIndices t
  funext j
  show k0_pay1 (F := Ideal) (iblk0 V c 0 t) (iblk0 V c 1 t) j
    = Cert.Dense.rowsByCols512 (V c main_arg0) (V c main_arg2) (((cfg0.win 2).blk t).view.emb j)
  refine (blockProduct_apply (iblk0 V c 0 t) (iblk0 V c 1 t) j).trans ?_
  unfold Cert.Dense.rowsByCols512
  refine Finset.sum_congr rfl fun k _ => ?_
  congr 1
  · show V c main_arg0 (((cfg0.win 0).blk t).view.emb (ix2 (n0 := 2000) (n1 := 512) ⟨(j 0).val, (j 0).isLt⟩ k)) = V c main_arg0 _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  · show V c main_arg2 (((cfg0.win 1).blk t).view.emb (ix2 (n0 := 512) (n1 := 512) k ⟨(j 1).val, (j 1).isLt⟩)) = V c main_arg2 _
    refine congrArg (V c main_arg2) (funext fun a => Fin.ext ?_)
    match a with
    | ⟨0, _⟩ =>
      show win0_1.index t (0 : Fin 2) * 512 + 1 * k.val = k.val
      omega
    | ⟨1, _⟩ =>
      show win0_1.index t (1 : Fin 2) * 512 + 1 * (j 1).val = win0_2.index t (1 : Fin 2) * 512 + 1 * (j 1).val
      omega

/-- An index of the output array lies in point t's block iff each coordinate is in the block's range. -/
theorem mem_block (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v30).slice (win0_2.rect t)).set ↔ _
  rw [View.set_slice_whole, Rect.mem_set_unit]
  exact Iff.rfl

/-- Row r of the output is written by point r / 2000: the five blocks tile the array. -/
theorem rows_covered (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨e0, e1, e2, e3, e4, e5⟩ := blockIndices t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 512 ≤ (i 1).val ∧ (i 1).val < win0_2.index t (1 : Fin 2) * 512 + 512
    omega

/-- After the region its output array is the whole product of the two arrays it was entered with. -/
theorem out_array (c : Dev nD) :
    (dat0 V c).arrAt 2 cfg0.N = Cert.Dense.rowsByCols512 (V c main_arg0) (V c main_arg2) :=
  (dat0 V c).arrAt_eq_of_cover 2 _ (fun t _ => flushed_rows V c t) rows_covered

end Cert.KernelIdeal.Rows0

end
-- ==== Proof.Rows1.lean ====
/-
  The second pallas_call, read exactly.

  The region walks the 10000 × 512 array of hidden features (the first layer's output after the
  rectifier) in five blocks of 2000 rows. At block t it multiplies the block — passed through a
  reshape to its own shape, and through the change to the short float format, both the identity
  here — by the whole 512 × 64 weight array, from a zero accumulator, and writes the 2000 × 64
  product to rows 2000·t … 2000·t + 1999 of the output. The five output blocks tile the
  10000 × 64 output, which therefore ends holding Σ_k h[r, k] · w[k, q] of the two arrays the
  region was entered with: `Cert.Dense.rowsByCols64`.
-/
import proofs.«138708_j446676598800_1_alg».proof.Proof.Gen.KernelIdeal.Frame
import proofs.«138708_j446676598800_1_alg».proof.Proof.Dense
import Idealize.ShloMosaic.Lib.Pipeline.Value
import Idealize.ShloMosaic.Lib.ValueIdx
import Idealize.ShloMosaic.PureOps.Ideal.Laws

set_option maxRecDepth 16384

noncomputable section

namespace Cert.KernelIdeal.Rows1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## One block product at an entry -/

/-- The left operand of the block product is read at the output's row … -/
theorem lhs_row (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
/-- … and at the contracted channel; -/
theorem lhs_chan (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q
/-- the right operand at the contracted channel … -/
theorem rhs_chan (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q
/-- … and at the output's column. -/
theorem rhs_col (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- What the body stores, at entry (r, q) of the block: Σ_k (hidden block)[r, k] · (weight block)[k, q]. -/
theorem blockProduct_apply (x0 : Vec Ideal S2000x512 .f32) (x1 : Vec Ideal S512x64 .f32) (j : S2000x64.Idx) :
    k1_pay1 (F := Ideal) x0 x1 j
      = ∑ k : Fin 512, x0 (ix2 (n0 := 2000) (n1 := 512) ⟨(j 0).val, (j 0).isLt⟩ k) * x1 (ix2 (n0 := 512) (n1 := 64) k ⟨(j 1).val, (j 1).isLt⟩) := by
  unfold k1_pay1
  refine (Ideal.matmul_constant_zero_apply dot_S2000x512_S512x64_S2000x64_1_0_0_1_n_n none _ _ j).trans ?_
  rw [shapeCast_self]
  show ∑ k : dot_S2000x512_S512x64_S2000x64_1_0_0_1_n_n.contr.Idx, x0 (dot_S2000x512_S512x64_S2000x64_1_0_0_1_n_n.lhsIdx j k) * x1 (dot_S2000x512_S512x64_S2000x64_1_0_0_1_n_n.rhsIdx j k) = _
  rw [← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx j ((ValueIdx.contrEquiv1 dot_S2000x512_S512x64_S2000x64_1_0_0_1_n_n 512 rfl rfl).symm k)
      = ix2 (n0 := 2000) (n1 := 512) ⟨(j 0).val, (j 0).isLt⟩ k := funext fun a => Fin.ext (by
    match a with
    | ⟨0, _⟩ => exact lhs_row _ _
    | ⟨1, _⟩ => exact (lhs_chan _ _).trans hk)
  have er : dot_S2000x512_S512x64_S2000x64_1_0_0_1_n_n.rhsIdx j ((ValueIdx.contrEquiv1 dot_S2000x512_S512x64_S2000x64_1_0_0_1_n_n 512 rfl rfl).symm k)
      = ix2 (n0 := 512) (n1 := 64) k ⟨(j 1).val, (j 1).isLt⟩ := funext fun a => Fin.ext (by
    match a with
    | ⟨0, _⟩ => exact (rhs_chan _ _).trans hk
    | ⟨1, _⟩ => exact rhs_col _ _)
  rw [el, er]

/-! ## From the five blocks to the array -/

-- the arrays as the region finds them
variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the hidden block and the output block at
    block row t, block column 0; the weight block always at (0, 0). -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t writes back rows 2000·t … of the whole product: its block of `rowsByCols64`. -/
theorem flushed_rows (c : Dev nD) (t : Fin cfg1.N) :
    (dat1 V c).flushed 2 t
      = ((cfg1.win 2).blk t).view.read (Elt Ideal) (Cert.Dense.rowsByCols64 (V c main_v47) (V c main_arg4)) := by
  show (cfg1.win 2).cut (grid1.coords t) ((dat1 V c).after 2 t) = _
  rw [after1_2]
  unfold out1_2
  rw [View.canon_unit_zero origin]
  simp only [View.ld_unit_zero (S := S2000x512) origin, View.ld_unit_zero (S := S512x64) origin]
  obtain ⟨e0, e1, e2, e3, e4, e5⟩ := blockIndices t
  funext j
  show k1_pay1 (F := Ideal) (iblk1 V c 0 t) (iblk1 V c 1 t) j
    = Cert.Dense.rowsByCols64 (V c main_v47) (V c main_arg4) (((cfg1.win 2).blk t).view.emb j)
  refine (blockProduct_apply (iblk1 V c 0 t) (iblk1 V c 1 t) j).trans ?_
  unfold Cert.Dense.rowsByCols64
  refine Finset.sum_congr rfl fun k _ => ?_
  congr 1
  · show V c main_v47 (((cfg1.win 0).blk t).view.emb (ix2 (n0 := 2000) (n1 := 512) ⟨(j 0).val, (j 0).isLt⟩ k)) = V c main_v47 _
    refine congrArg (V c main_v47) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 512 + 1 * k.val = k.val
      omega
  · show V c main_arg4 (((cfg1.win 1).blk t).view.emb (ix2 (n0 := 512) (n1 := 64) k ⟨(j 1).val, (j 1).isLt⟩)) = V c main_arg4 _
    refine congrArg (V c main_arg4) (funext fun a => Fin.ext ?_)
    match a with
    | ⟨0, _⟩ =>
      show win1_1.index t (0 : Fin 2) * 512 + 1 * k.val = k.val
      omega
    | ⟨1, _⟩ =>
      show win1_1.index t (1 : Fin 2) * 64 + 1 * (j 1).val = win1_2.index t (1 : Fin 2) * 64 + 1 * (j 1).val
      omega

/-- An index of the output array lies in point t's block iff each coordinate is in the block's range. -/
theorem mem_block (t : Fin cfg1.N) (i : S10000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- Row r of the output is written by point r / 2000: the five blocks tile the array. -/
theorem rows_covered (i : S10000x64.Idx) :
    ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨e0, e1, e2, e3, e4, e5⟩ := blockIndices t
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- After the region its output array is the whole product of the two arrays it was entered with. -/
theorem out_array (c : Dev nD) :
    (dat1 V c).arrAt 2 cfg1.N = Cert.Dense.rowsByCols64 (V c main_v47) (V c main_arg4) :=
  (dat1 V c).arrAt_eq_of_cover 2 _ (fun t _ => flushed_rows V c t) rows_covered

end Cert.KernelIdeal.Rows1

end
-- ==== Proof.KernelFold.lean ====
/-
  The kernel program's buffers at each boundary, read back to the launch memory.

  Between the launch and the return the program alternates host stretches and the two dense regions.
  Each stretch is a straight line of array operations, so what a buffer holds after it is a fixed
  function of what a few buffers held before it: the first stretch makes the padded endpoint lists
  and the edge weights from the edge list; the second makes the hidden features from the first
  product; the third makes both results from the second product. Each region replaces its output
  array by the whole product of its two input arrays (`Rows0`, `Rows1`) and touches nothing else.
  Composing these gives each result buffer at the end as the network function of the six arguments.
-/
import proofs.«138708_j446676598800_1_alg».proof.Proof.Gen.KernelIdeal.Frame
import proofs.«138708_j446676598800_1_alg».proof.Proof.Chains
import proofs.«138708_j446676598800_1_alg».proof.Proof.Network
import proofs.«138708_j446676598800_1_alg».proof.Proof.Rows0
import proofs.«138708_j446676598800_1_alg».proof.Proof.Rows1

set_option maxRecDepth 16384

noncomputable section

namespace Cert.KernelIdeal.Fold

open Cert.KernelIdeal Cert.KernelIdeal.Gen Cert.KernelIdeal.Chains Cert.Dense
open Idealize.ShloMosaic Idealize.ShloMosaic.TcCoe Idealize.SL.Sem Idealize.ShloMosaic.StableHlo

/-! ## The host stretches, from any contents -/

/-- The rewriting loop that reads each operation's result at its own buffer and skips the others, used after the
    one-pass form for what that form leaves inside a concatenate's list of operands. -/
local macro "results_loop" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Stretches

variable {F : FTy → Type} [FloatOps F] (V : Valuation τ sig (Elt F))

/-- After the first stretch the source list is the edge list's row 0 with the self-loops appended, -/
theorem first_src : after hostOps0_2 (after hostOps0_1 (after hostOps0 V)) (Proc.devRef .tc main_v5)
    = endpoints0 (V (Proc.devRef .tc main_arg1)) := by
  after_results_simp
  results_loop
  rfl

/-- the destination list its row 1 with the self-loops appended, -/
theorem first_dst : after hostOps0_2 (after hostOps0_1 (after hostOps0 V)) (Proc.devRef .tc main_v6)
    = endpoints1 (V (Proc.devRef .tc main_arg1)) := by
  after_results_simp
  results_loop
  rfl

/-- and the weight of every edge is dinv[src] · dinv[dst] of those two lists. -/
theorem first_weight : after hostOps0_2 (after hostOps0_1 (after hostOps0 V)) (Proc.devRef .tc main_v29)
    = edgeWeight (endpoints0 (V (Proc.devRef .tc main_arg1))) (endpoints1 (V (Proc.devRef .tc main_arg1))) := by
  after_results_simp
  results_loop
  rfl

-- it writes none of the float arguments
theorem first_keeps_arg0 : after hostOps0_2 (after hostOps0_1 (after hostOps0 V)) (Proc.devRef .tc main_arg0) = V (Proc.devRef .tc main_arg0) := by
  after_results_simp <;> rfl
theorem first_keeps_arg2 : after hostOps0_2 (after hostOps0_1 (after hostOps0 V)) (Proc.devRef .tc main_arg2) = V (Proc.devRef .tc main_arg2) := by
  after_results_simp <;> rfl
theorem first_keeps_arg3 : after hostOps0_2 (after hostOps0_1 (after hostOps0 V)) (Proc.devRef .tc main_arg3) = V (Proc.devRef .tc main_arg3) := by
  after_results_simp <;> rfl
theorem first_keeps_arg4 : after hostOps0_2 (after hostOps0_1 (after hostOps0 V)) (Proc.devRef .tc main_arg4) = V (Proc.devRef .tc main_arg4) := by
  after_results_simp <;> rfl
theorem first_keeps_arg5 : after hostOps0_2 (after hostOps0_1 (after hostOps0 V)) (Proc.devRef .tc main_arg5) = V (Proc.devRef .tc main_arg5) := by
  after_results_simp <;> rfl

/-- After the second stretch the hidden features are the rectified propagation of the first product. -/
theorem second_hidden : after hostOps1_1 (after hostOps1 V) (Proc.devRef .tc main_v47)
    = hidden (V (Proc.devRef .tc main_v30)) (V (Proc.devRef .tc main_v5)) (V (Proc.devRef .tc main_v6)) (V (Proc.devRef .tc main_v29)) (V (Proc.devRef .tc main_arg3)) := by
  after_results_simp <;> rfl

-- it writes neither the endpoint lists, nor the weights, nor the second layer's arguments
theorem second_keeps_v5 : after hostOps1_1 (after hostOps1 V) (Proc.devRef .tc main_v5) = V (Proc.devRef .tc main_v5) := by
  after_results_simp <;> rfl
theorem second_keeps_v6 : after hostOps1_1 (after hostOps1 V) (Proc.devRef .tc main_v6) = V (Proc.devRef .tc main_v6) := by
  after_results_simp <;> rfl
theorem second_keeps_v29 : after hostOps1_1 (after hostOps1 V) (Proc.devRef .tc main_v29) = V (Proc.devRef .tc main_v29) := by
  after_results_simp <;> rfl
theorem second_keeps_arg4 : after hostOps1_1 (after hostOps1 V) (Proc.devRef .tc main_arg4) = V (Proc.devRef .tc main_arg4) := by
  after_results_simp <;> rfl
theorem second_keeps_arg5 : after hostOps1_1 (after hostOps1 V) (Proc.devRef .tc main_arg5) = V (Proc.devRef .tc main_arg5) := by
  after_results_simp <;> rfl

/-- After the third stretch's own operations the first result is the propagation of the second product; -/
theorem third_out : after hostOps2 V (Proc.devRef .tc main_v64)
    = propagate64 (V (Proc.devRef .tc main_v48)) (V (Proc.devRef .tc main_v5)) (V (Proc.devRef .tc main_v6)) (V (Proc.devRef .tc main_v29)) (V (Proc.devRef .tc main_arg5)) := by
  after_results_simp <;> rfl

/-- the log-softmax that follows leaves it where it is -/
theorem softmax_keeps : after hostOps2_1 V (Proc.devRef .tc main_v64) = V (Proc.devRef .tc main_v64) := by
  after_results_simp <;> rfl

/-- and writes its row-wise log-softmax beside it. -/
theorem softmax_of : after hostOps2_1 V (Proc.devRef .tc main_v65) = logSoftmax (V (Proc.devRef .tc main_v64)) := by
  after_results_simp <;> (try simp only [TRef.ofBuf, TRef.toBuf, cast_eq]) <;> rfl

theorem third_logits : after hostOps2_1 (after hostOps2 V) (Proc.devRef .tc main_v64)
    = propagate64 (V (Proc.devRef .tc main_v48)) (V (Proc.devRef .tc main_v5)) (V (Proc.devRef .tc main_v6)) (V (Proc.devRef .tc main_v29)) (V (Proc.devRef .tc main_arg5)) :=
  (softmax_keeps (after hostOps2 V)).trans (third_out V)

theorem third_logProbs : after hostOps2_1 (after hostOps2 V) (Proc.devRef .tc main_v65)
    = logSoftmax (propagate64 (V (Proc.devRef .tc main_v48)) (V (Proc.devRef .tc main_v5)) (V (Proc.devRef .tc main_v6)) (V (Proc.devRef .tc main_v29)) (V (Proc.devRef .tc main_arg5))) :=
  (softmax_of (after hostOps2 V)).trans (congrArg logSoftmax (third_out V))

end Stretches

/-! ## The boundaries of the run, read back to the launch memory -/

section Run

variable (m : (ℓ : Loc nD τ sig) → Buf (Elt Ideal) ℓ) (ρ : Dev nD → PrngReg) (c : Dev nD)

/-! ### At the first region's entry -/

theorem at3_src : W3 m ρ c (Proc.devRef .tc main_v5) = endpoints0 (m ((c : Thread nD τ).loc main_arg1)) := first_src (W0 m ρ c)
theorem at3_dst : W3 m ρ c (Proc.devRef .tc main_v6) = endpoints1 (m ((c : Thread nD τ).loc main_arg1)) := first_dst (W0 m ρ c)
theorem at3_weight : W3 m ρ c (Proc.devRef .tc main_v29) = edgeWeight (endpoints0 (m ((c : Thread nD τ).loc main_arg1))) (endpoints1 (m ((c : Thread nD τ).loc main_arg1))) := first_weight (W0 m ρ c)
theorem at3_arg0 : W3 m ρ c (Proc.devRef .tc main_arg0) = (m ((c : Thread nD τ).loc main_arg0)) := first_keeps_arg0 (W0 m ρ c)
theorem at3_arg2 : W3 m ρ c (Proc.devRef .tc main_arg2) = (m ((c : Thread nD τ).loc main_arg2)) := first_keeps_arg2 (W0 m ρ c)
theorem at3_arg3 : W3 m ρ c (Proc.devRef .tc main_arg3) = (m ((c : Thread nD τ).loc main_arg3)) := first_keeps_arg3 (W0 m ρ c)
theorem at3_arg4 : W3 m ρ c (Proc.devRef .tc main_arg4) = (m ((c : Thread nD τ).loc main_arg4)) := first_keeps_arg4 (W0 m ρ c)
theorem at3_arg5 : W3 m ρ c (Proc.devRef .tc main_arg5) = (m ((c : Thread nD τ).loc main_arg5)) := first_keeps_arg5 (W0 m ρ c)

/-! ### At its exit: the first product, everything else as entered -/

theorem at4_product : W4 m ρ c (Proc.devRef .tc main_v30) = rowsByCols512 (m ((c : Thread nD τ).loc main_arg0)) (m ((c : Thread nD τ).loc main_arg2)) := by
  refine (W4_arr m ρ c 2).trans ((Rows0.out_array (V3 m ρ) c).trans ?_)
  show rowsByCols512 (W3 m ρ c (Proc.devRef .tc main_arg0)) (W3 m ρ c (Proc.devRef .tc main_arg2)) = _
  rw [at3_arg0, at3_arg2]
theorem at4_src : W4 m ρ c (Proc.devRef .tc main_v5) = endpoints0 (m ((c : Thread nD τ).loc main_arg1)) := (W4_of_ne m ρ c main_v5 (by decide)).trans (at3_src m ρ c)
theorem at4_dst : W4 m ρ c (Proc.devRef .tc main_v6) = endpoints1 (m ((c : Thread nD τ).loc main_arg1)) := (W4_of_ne m ρ c main_v6 (by decide)).trans (at3_dst m ρ c)
theorem at4_weight : W4 m ρ c (Proc.devRef .tc main_v29) = edgeWeight (endpoints0 (m ((c : Thread nD τ).loc main_arg1))) (endpoints1 (m ((c : Thread nD τ).loc main_arg1))) := (W4_of_ne m ρ c main_v29 (by decide)).trans (at3_weight m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)

/-! ### At the second region's entry -/

theorem at6_hidden : W6 m ρ c (Proc.devRef .tc main_v47) = Network.hiddenFeatures (m ((c : Thread nD τ).loc main_arg0)) (m ((c : Thread nD τ).loc main_arg1)) (m ((c : Thread nD τ).loc main_arg2)) (m ((c : Thread nD τ).loc main_arg3)) := by
  refine (second_hidden (W4 m ρ c)).trans ?_
  rw [at4_product, at4_src, at4_dst, at4_weight, at4_arg3]
  rfl
theorem at6_src : W6 m ρ c (Proc.devRef .tc main_v5) = endpoints0 (m ((c : Thread nD τ).loc main_arg1)) := (second_keeps_v5 (W4 m ρ c)).trans (at4_src m ρ c)
theorem at6_dst : W6 m ρ c (Proc.devRef .tc main_v6) = endpoints1 (m ((c : Thread nD τ).loc main_arg1)) := (second_keeps_v6 (W4 m ρ c)).trans (at4_dst m ρ c)
theorem at6_weight : W6 m ρ c (Proc.devRef .tc main_v29) = edgeWeight (endpoints0 (m ((c : Thread nD τ).loc main_arg1))) (endpoints1 (m ((c : Thread nD τ).loc main_arg1))) := (second_keeps_v29 (W4 m ρ c)).trans (at4_weight m ρ c)
theorem at6_arg4 : W6 m ρ c (Proc.devRef .tc main_arg4) = (m ((c : Thread nD τ).loc main_arg4)) := (second_keeps_arg4 (W4 m ρ c)).trans (at4_arg4 m ρ c)
theorem at6_arg5 : W6 m ρ c (Proc.devRef .tc main_arg5) = (m ((c : Thread nD τ).loc main_arg5)) := (second_keeps_arg5 (W4 m ρ c)).trans (at4_arg5 m ρ c)

/-! ### At its exit: the second product, everything else as entered -/

theorem at7_product : W7 m ρ c (Proc.devRef .tc main_v48) = rowsByCols64 (Network.hiddenFeatures (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Rows1.out_array (V6 m ρ) c).trans ?_)
  show rowsByCols64 (W6 m ρ c (Proc.devRef .tc main_v47)) (W6 m ρ c (Proc.devRef .tc main_arg4)) = _
  rw [at6_hidden, at6_arg4]
theorem at7_src : W7 m ρ c (Proc.devRef .tc main_v5) = endpoints0 (m ((c : Thread nD τ).loc main_arg1)) := (W7_of_ne m ρ c main_v5 (by decide)).trans (at6_src m ρ c)
theorem at7_dst : W7 m ρ c (Proc.devRef .tc main_v6) = endpoints1 (m ((c : Thread nD τ).loc main_arg1)) := (W7_of_ne m ρ c main_v6 (by decide)).trans (at6_dst m ρ c)
theorem at7_weight : W7 m ρ c (Proc.devRef .tc main_v29) = edgeWeight (endpoints0 (m ((c : Thread nD τ).loc main_arg1))) (endpoints1 (m ((c : Thread nD τ).loc main_arg1))) := (W7_of_ne m ρ c main_v29 (by decide)).trans (at6_weight m ρ c)
theorem at7_arg5 : W7 m ρ c (Proc.devRef .tc main_arg5) = (m ((c : Thread nD τ).loc main_arg5)) := (W7_of_ne m ρ c main_arg5 (by decide)).trans (at6_arg5 m ρ c)

/-! ### At the return -/

/-- The first result buffer ends holding the network's logits of the six arguments, -/
theorem result_logits : W9 m ρ c (Proc.devRef .tc main_v64) = Network.logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (third_logits (W7 m ρ c)).trans ?_
  rw [at7_product, at7_src, at7_dst, at7_weight, at7_arg5]
  rfl

/-- and the second their row-wise log-softmax. -/
theorem result_logProbs : W9 m ρ c (Proc.devRef .tc main_v65) = Network.logProbs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (third_logProbs (W7 m ρ c)).trans ?_
  rw [at7_product, at7_src, at7_dst, at7_weight, at7_arg5]
  rfl

end Run

end Cert.KernelIdeal.Fold

end
-- ==== Proof.RefBridge.lean ====
/-
  The reference program computes the same network.

  The reference's stages (the generated reading of its run, one operation at a time) are compared
  with the named chains of the kernel program. Its padded endpoint lists and its edge weights are
  spelt exactly as the kernel's — twice, once per layer, from the same edge list — so each is the
  kernel's chain of the edge list. Its two `dot_general`s, read at an entry, are the same sums
  Σ_k x[r, k] · w[k, q] as `Cert.Dense`. Between and after them it applies, operation for
  operation, the kernel's propagation, rectifier and log-softmax. So its two results are the
  network's logits and log-probabilities of its six arguments.
-/
import proofs.«138708_j446676598800_1_alg».proof.Proof.RefRead
import proofs.«138708_j446676598800_1_alg».proof.Proof.Network

noncomputable section

namespace Cert.ReferenceIdeal.Bridge

open Cert.ReferenceIdeal Cert.ReferenceIdeal.ReadP Idealize.ShloMosaic Idealize.ShloMosaic.ValueIdx
open Cert.KernelIdeal.Chains Cert.KernelIdeal.Network Cert.Dense

/-! ## The host chains, at any float family -/

section Chains

variable {F : FTy → Type} [FloatOps F]
variable (x0 : (⟨S10000x512, .f32⟩ : BufTy).Contents (Elt F)) (x1 : (⟨S2x163840, .i32⟩ : BufTy).Contents (Elt F)) (x2 : (⟨S512x512, .f32⟩ : BufTy).Contents (Elt F))
  (x3 : (⟨S512, .f32⟩ : BufTy).Contents (Elt F)) (x4 : (⟨S512x64, .f32⟩ : BufTy).Contents (Elt F)) (x5 : (⟨S64, .f32⟩ : BufTy).Contents (Elt F))

/-- The first layer's padded source list is the kernel's, -/
theorem src1 : val_main_v5 (F := F) x1 = endpoints0 x1 := rfl
/-- its padded destination list likewise, -/
theorem dst1 : val_main_v6 (F := F) x1 = endpoints1 x1 := rfl
/-- and so are its edge weights. -/
theorem weight1 : val_main_v29 (F := F) x1 = edgeWeight (endpoints0 x1) (endpoints1 x1) := rfl

/-- The second layer recomputes all three from the same edge list. -/
theorem src2 : val_main_v53 (F := F) x1 = endpoints0 x1 := rfl
theorem dst2 : val_main_v54 (F := F) x1 = endpoints1 x1 := rfl
theorem weight2 : val_main_v77 (F := F) x1 = edgeWeight (endpoints0 x1) (endpoints1 x1) := rfl

/-- After its first product the reference propagates and rectifies as the kernel does. -/
theorem hidden_of_product : val_main_v47 (F := F) x0 x1 x2 x3
    = hidden (val_main_v30 (F := F) x0 x2) (val_main_v5 (F := F) x1) (val_main_v6 (F := F) x1) (val_main_v29 (F := F) x1) x3 := rfl

/-- After its second product it propagates as the kernel does, -/
theorem logits_of_product : val_main_v94 (F := F) x0 x1 x2 x3 x4 x5
    = propagate64 (val_main_v78 (F := F) x0 x1 x2 x3 x4) (val_main_v53 (F := F) x1) (val_main_v54 (F := F) x1) (val_main_v77 (F := F) x1) x5 := rfl

/-- and takes the same row-wise log-softmax. -/
theorem logProbs_of_logits : val_main_v95 (F := F) x0 x1 x2 x3 x4 x5 = logSoftmax (val_main_v94 (F := F) x0 x1 x2 x3 x4 x5) := rfl

end Chains

/-! ## The dense products, over the extended reals -/

section Products

variable (x0 : (⟨S10000x512, .f32⟩ : BufTy).Contents (Elt Ideal)) (x1 : (⟨S2x163840, .i32⟩ : BufTy).Contents (Elt Ideal)) (x2 : (⟨S512x512, .f32⟩ : BufTy).Contents (Elt Ideal))
  (x3 : (⟨S512, .f32⟩ : BufTy).Contents (Elt Ideal)) (x4 : (⟨S512x64, .f32⟩ : BufTy).Contents (Elt Ideal)) (x5 : (⟨S64, .f32⟩ : BufTy).Contents (Elt Ideal))

/-- The first `dot_general` is the row-by-column product. -/
theorem product1 : val_main_v30 (F := Ideal) x0 x2 = rowsByCols512 x0 x2 := by
  funext i
  rw [val_main_v30_apply]
  have hl : ∀ k : Fin 512, lidx_main_v30 i k = ix2 (n0 := 10000) (n1 := 512) ⟨(i 0).val, (i 0).isLt⟩ k := fun k =>
    funext fun a => Fin.ext (by match a with | ⟨0, _⟩ => rfl | ⟨1, _⟩ => rfl)
  have hr : ∀ k : Fin 512, ridx_main_v30 i k = ix2 (n0 := 512) (n1 := 512) k ⟨(i 1).val, (i 1).isLt⟩ := fun k =>
    funext fun a => Fin.ext (by match a with | ⟨0, _⟩ => rfl | ⟨1, _⟩ => rfl)
  unfold rowsByCols512
  exact Finset.sum_congr rfl fun k _ => by rw [hl k, hr k]

/-- The second `dot_general` is the row-by-column product of the hidden features. -/
theorem product2 : val_main_v78 (F := Ideal) x0 x1 x2 x3 x4 = rowsByCols64 (val_main_v47 (F := Ideal) x0 x1 x2 x3) x4 := by
  funext i
  rw [val_main_v78_apply]
  have hl : ∀ k : Fin 512, lidx_main_v78 i k = ix2 (n0 := 10000) (n1 := 512) ⟨(i 0).val, (i 0).isLt⟩ k := fun k =>
    funext fun a => Fin.ext (by match a with | ⟨0, _⟩ => rfl | ⟨1, _⟩ => rfl)
  have hr : ∀ k : Fin 512, ridx_main_v78 i k = ix2 (n0 := 512) (n1 := 64) k ⟨(i 1).val, (i 1).isLt⟩ := fun k =>
    funext fun a => Fin.ext (by match a with | ⟨0, _⟩ => rfl | ⟨1, _⟩ => rfl)
  unfold rowsByCols64
  exact Finset.sum_congr rfl fun k _ => by rw [hl k, hr k]

/-! ## The two results -/

theorem hidden_eq : val_main_v47 (F := Ideal) x0 x1 x2 x3 = hiddenFeatures x0 x1 x2 x3 := by
  rw [hidden_of_product, product1, src1, dst1, weight1]
  rfl

/-- The reference's first result is the network's logits of its arguments, -/
theorem logits_eq : val_main_v94 (F := Ideal) x0 x1 x2 x3 x4 x5 = logits x0 x1 x2 x3 x4 x5 := by
  rw [logits_of_product, product2, hidden_eq, src2, dst2, weight2]
  rfl

/-- and its second their log-probabilities. -/
theorem logProbs_eq : val_main_v95 (F := Ideal) x0 x1 x2 x3 x4 x5 = logProbs x0 x1 x2 x3 x4 x5 := by
  rw [logProbs_of_logits, logits_eq]
  rfl

end Products

end Cert.ReferenceIdeal.Bridge

end
-- ==== Proof.lean ====
/-
  A two-layer graph convolution, computed two ways, is one function over the extended reals.

  The kernel program forms each layer's dense product x · W in a pallas_call that walks the node
  features in five blocks of 2000 rows, casting both operands to a short float format on the way
  in; the reference forms it with one `dot_general`. Read exactly — sums and products exact, a
  change of float format the identity — a block's product is the same rows of Σ_k x[r, k] · w[k, q],
  and the five blocks tile the array, so both programs hold the same product (`Rows0`, `Rows1`,
  `RefBridge`). Everything else — the self-loops, the degree normalisation, the gather at the edges'
  sources, the scaling, the scatter-add into the destinations, the bias, the rectifier and the final
  log-softmax — both programs spell with the same host operations on the same arrays (the reference
  recomputes the edge weights for the second layer from the same edge list), so those chains are
  carried as named functions and never opened (`Chains`, `Network`). No step uses a law that fails
  at an infinity, so the finiteness of the inputs is never called on.

  The three frames: the two kernel programs' are generated; the reference's is its run with the
  results dropped. The idealization rewrote nothing, so `preserves` has nothing to say.
-/
import proofs.«138708_j446676598800_1_alg».proof.Defs
import proofs.«138708_j446676598800_1_alg».proof.Proof.Gen.Kernel
import proofs.«138708_j446676598800_1_alg».proof.Proof.Gen.Kernel.Frame
import proofs.«138708_j446676598800_1_alg».proof.Proof.Gen.KernelIdeal
import proofs.«138708_j446676598800_1_alg».proof.Proof.Gen.KernelIdeal.Frame
import proofs.«138708_j446676598800_1_alg».proof.Proof.Gen.ReferenceIdeal
import proofs.«138708_j446676598800_1_alg».proof.Proof.Gen.Pre_finite_inputs
import proofs.«138708_j446676598800_1_alg».proof.Proof.KernelRun
import proofs.«138708_j446676598800_1_alg».proof.Proof.KernelFold
import proofs.«138708_j446676598800_1_alg».proof.Proof.RefRun
import proofs.«138708_j446676598800_1_alg».proof.Proof.RefRead
import proofs.«138708_j446676598800_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization changed no operation. -/
theorem preserves : Cert.preserves_Kernel_KernelIdeal := trivial

/-- From memories that agree on the six arguments both programs end with the network's logits in
    their first result and the logits' row-wise log-softmax in their second. -/
theorem algebraic : Cert.algebraic_KernelIdeal_ReferenceIdeal := by
  intro m ρ m' ρ' _ hagree
  refine ⟨fun c => Cert.KernelIdeal.Network.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Network.logProbs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_logits m ρ c),
        (h c).2.1.trans (Cert.KernelIdeal.Fold.result_logProbs m ρ c), (h c).2.2⟩)
      (Cert.KernelIdeal.GenP.run_results (F := Ideal) m ρ)
  · refine (θ_run Cert.ReferenceIdeal.defs _ _).mono (fun r h c => ⟨?_, ?_, (h c).2.2⟩)
      (Cert.ReferenceIdeal.ValueP.run (F := Ideal) m' ρ')
    · refine (h c).1.trans ((Cert.ReferenceIdeal.ReadP.val_main_v94_eq m' c).trans
        ((Cert.ReferenceIdeal.Bridge.logits_eq _ _ _ _ _ _).trans ?_))
      rw [(hagree c).1, (hagree c).2.1, (hagree c).2.2.1, (hagree c).2.2.2.1, (hagree c).2.2.2.2.1, (hagree c).2.2.2.2.2]
    · refine (h c).2.1.trans ((Cert.ReferenceIdeal.ReadP.val_main_v95_eq m' c).trans
        ((Cert.ReferenceIdeal.Bridge.logProbs_eq _ _ _ _ _ _).trans ?_))
      rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
